-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S512x1 : Shape := ⟨2, ![512, 1]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S1x4096, .f32⟩
  | .hbm, ⟨7, _⟩ => ⟨S4096x4096, .bf16⟩
  | .hbm, ⟨8, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | .local _ .vmem, ⟨6, _⟩ => ⟨S1x4096, .f32⟩
  | .local _ .vmem, ⟨7, _⟩ => ⟨S512x4096, .bf16⟩
  | .local _ .vmem, ⟨8, _⟩ => ⟨S512x4096, .bf16⟩
  | .local _ .vmem, ⟨9, _⟩ => ⟨S1024x4096, .f32⟩
  | .local _ .vmem, ⟨10, _⟩ => ⟨S1024x4096, .f32⟩
  | .local _ .vmem, ⟨11, _⟩ => ⟨S4096x512, .bf16⟩
  | .local _ .vmem, ⟨12, _⟩ => ⟨S4096x512, .bf16⟩
  | .local _ .vmem, ⟨13, _⟩ => ⟨S1024x512, .f32⟩
  | .local _ .vmem, ⟨14, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x4096.size a
  hwx1_2 : ∀ i : grid1.Coords, EltTy.bits .f32 = 32 ∨ (Rect.block (s := S8192x4096) S1024x512.size (cc1_transform_2 i) (hinb1_2 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  A dense layer whose weight matrix is a mean plus scaled noise, over the extended reals.

  The weight is `W = W_m + diag(e^(u/2)) · ε · diag(e^(v/2))`: entry `(r, c)` is `W_m(r, c)` plus the noise `ε(r, c)`
  scaled by the row factor `e^(u_r / 2)` and the column factor `e^(v_c / 2)`. The layer's result is the plain product
  `x · W`: entry `(b, c)` is the sum over `k` of `x(b, k) · W(k, c)`.
  One program forms the scaled noise as `row · (ε · column)`, the other as `(row · ε) · column`; multiplication of
  extended reals is associative (also at the infinities and at zero), so the two weights are one function, and no
  finiteness of the inputs is used.
-/
import Idealize.ShloMosaic.Lib.ValueIdx
import Idealize.ShloMosaic.PureOps.Ideal.Laws

noncomputable section

namespace Cert.NoisyDense

open Idealize.ShloMosaic Idealize.ShloMosaic.ValueIdx

/-- A matrix and a vector of extended reals, indexed as the programs' arrays are. -/
abbrev Mat (a b : ℕ) : Type := (⟨2, ![a, b]⟩ : Shape).Idx → EReal
abbrev Vct (a : ℕ) : Type := (⟨1, ![a]⟩ : Shape).Idx → EReal

/-- One half: the binary word both programs carry for it (it is never evaluated). -/
abbrev half : EReal := Ideal.ofBits .f32 0x3F000000#32

/-- The scale factor `e^(u_r / 2)` of row (or column) `r`. -/
def factor (u : Vct 4096) (r : Fin 4096) : EReal := Ideal.exp (half * u (ix1 r))

/-- The weight at `(r, c)`: the mean plus the noise scaled by its row's and its column's factor. -/
def weightAt (Wm eps : Mat 4096 4096) (u v : Vct 4096) (r c : Fin 4096) : EReal :=
  Wm (ix2 r c) + factor u r * (eps (ix2 r c) * factor v c)

/-- The weight matrix. -/
def weight (Wm eps : Mat 4096 4096) (u v : Vct 4096) : Mat 4096 4096 := fun i => weightAt Wm eps u v (i 0) (i 1)

theorem weight_ix2 (Wm eps : Mat 4096 4096) (u v : Vct 4096) (r c : Fin 4096) :
    weight Wm eps u v (ix2 r c) = weightAt Wm eps u v r c := rfl

/-- The other grouping of the scaled noise, `(row · ε) · column`, is the same weight. -/
theorem weightAt_regroup (Wm eps : Mat 4096 4096) (u v : Vct 4096) (r c : Fin 4096) :
    Wm (ix2 r c) + factor u r * eps (ix2 r c) * factor v c = weightAt Wm eps u v r c := by
  rw [weightAt, mul_assoc]

/-- The plain product of an `[8192, 4096]` by a `[4096, 4096]` matrix. -/
def product (x : Mat 8192 4096) (W : Mat 4096 4096) : Mat 8192 4096 :=
  fun i => ∑ k : Fin 4096, x (ix2 (i 0) k) * W (ix2 k (i 1))

theorem product_ix2 (x : Mat 8192 4096) (W : Mat 4096 4096) (b : Fin 8192) (c : Fin 4096) :
    product x W (ix2 b c) = ∑ k : Fin 4096, x (ix2 b k) * W (ix2 k c) := rfl

/-- The layer: `x · (W_m + diag(e^(u/2)) ε diag(e^(v/2)))`. -/
def layer (x : Mat 8192 4096) (Wm eps : Mat 4096 4096) (u v : Vct 4096) : Mat 8192 4096 :=
  product x (weight Wm eps u v)

end Cert.NoisyDense

end
-- ==== Proof.ProductRegion.lean ====
/-
  The second kernel region: the matrix product, tile by tile.

  The grid is 8 × 8; at point `(a, b)` the body multiplies rows `1024·a … 1024·a + 1023` of the left array (all 4096
  columns) by columns `512·b … 512·b + 511` of the right array (all 4096 rows) on the matrix unit, into zeros, and
  stores the `[1024, 512]` tile at block `(a, b)` of the result. Over the extended reals the tile's entry `(r, q)` is the
  sum over `k` of `left(1024·a + r, k) · right(k, 512·b + q)`: the entry of the whole product at that place. The 64
  tiles cover the result, so after the region the result array is the product of the two arrays as the region found
  them — stated for any contents `V` at the region's entry.
-/
import proofs.«153414_g18253611008866_pilotgen1_445_20_alg».proof.Proof.Gen.KernelIdeal.Frame
import proofs.«153414_g18253611008866_pilotgen1_445_20_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ProductRegion

open Cert.KernelIdeal Cert.KernelIdeal.Gen
open Idealize.ShloMosaic Idealize.ShloMosaic.TcCoe Idealize.SL.Sem Idealize.ShloMosaic.ValueIdx
open Idealize.ShloMosaic.Pipeline (Dat)
open Cert.NoisyDense

theorem hz : (![0, 0] : Fin 2 → Nat) = fun _ => 0 := funext fun a => by fin_cases a <;> rfl

/-! ## The tile's matrix product at an entry -/

/-- The left operand is read at the result's row and the contracted index, the right operand at the contracted index
    and the result's column: the record's four index maps, axis by axis. -/
theorem lhs_tile_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs_tile_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs_tile_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs_tile_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The body's stored value at `(r, q)`: the sum over `k` of `x0(r, k) · x1(k, q)` (the accumulator is zero, and
    the right operand's narrower format is the identity on extended reals). -/
theorem tile_apply (x0 : FVec Ideal S1024x4096 .f32) (x1 : FVec Ideal S4096x512 .bf16) (r : Fin 1024) (q : Fin 512) :
    k1_pay1 (F := Ideal) x0 x1 (ix2 r q) = ∑ k : Fin 4096, x0 (ix2 r k) * x1 (ix2 k q) := by
  unfold k1_pay1
  rw [shapeCast_self]
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 r q) ((contrEquiv1 dot_S1024x4096_S4096x512_S1024x512_1_0_0_1_n_n 4096 rfl rfl).symm k) = ix2 r k := funext fun a => Fin.ext (by
    match a with
    | ⟨0, _⟩ => exact lhs_tile_0 _ _
    | ⟨1, _⟩ => exact (lhs_tile_1 _ _).trans hk)
  have er : dot_S1024x4096_S4096x512_S1024x512_1_0_0_1_n_n.rhsIdx (ix2 r q) ((contrEquiv1 dot_S1024x4096_S4096x512_S1024x512_1_0_0_1_n_n 4096 rfl rfl).symm k) = ix2 k q := funext fun a => Fin.ext (by
    match a with
    | ⟨0, _⟩ => exact (rhs_tile_0 _ _).trans hk
    | ⟨1, _⟩ => exact rhs_tile_1 _ _)
  rw [el, er]

/-! ## The region, at any entry contents -/

variable (V : (c : Dev nD) → (b : Ref sig .tc) → Buf (Elt Ideal) ((c : Thread nD τ).loc b))

/-- The left array (the layer's input) and the right array (the weight the first region left), as the region finds them. -/
abbrev leftArr (c : Dev nD) : Mat 8192 4096 := V c main_arg0
abbrev rightArr (c : Dev nD) : Mat 4096 4096 := V c main_call0_v2

/-- The block indices over the grid: the left window follows the result's row block and stays at column block 0, the
    right window stays at row block 0 and follows the result's column block; both of the result's block indices are below 8. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 7 ∧ win1_2.index t (1 : Fin 2) ≤ 7 :=
  (by decide +kernel : ∀ t : Fin grid1.N, _)

/-- Every block of the result is some point's. -/
theorem idx_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- Row `r` of the left window's block at point `t` is row `1024 · (block index) + r` of the left array. -/
theorem left_block_apply (c : Dev nD) (t : Fin cfg1.N) (r : Fin 1024) (k : Fin 4096) (R : Fin 8192)
    (hR : R.val = win1_0.index t (0 : Fin 2) * 1024 + r.val) (h1 : win1_0.index t (1 : Fin 2) = 0) :
    (iblk1 V c 0 t : FVec Ideal S1024x4096 .f32) (ix2 r k) = leftArr V c (ix2 R k) := by
  unfold iblk1
  rw [View.read_apply]
  show V c main_arg0 _ = V c main_arg0 _
  refine congrArg (V c main_arg0) (funext fun a => Fin.ext ?_)
  match a with
  | ⟨0, _⟩ => show win1_0.index t (0 : Fin 2) * 1024 + 1 * r.val = R.val; omega
  | ⟨1, _⟩ => show win1_0.index t (1 : Fin 2) * 4096 + 1 * k.val = k.val; omega

/-- Column `q` of the right window's block at point `t` is column `512 · (block index) + q` of the right array. -/
theorem right_block_apply (c : Dev nD) (t : Fin cfg1.N) (k : Fin 4096) (q : Fin 512) (Q : Fin 4096)
    (hQ : Q.val = win1_1.index t (1 : Fin 2) * 512 + q.val) (h0 : win1_1.index t (0 : Fin 2) = 0) :
    (iblk1 V c 1 t : FVec Ideal S4096x512 .bf16) (ix2 k q) = rightArr V c (ix2 k Q) := by
  unfold iblk1
  rw [View.read_apply]
  show V c main_call0_v2 _ = V c main_call0_v2 _
  refine congrArg (V c main_call0_v2) (funext fun a => Fin.ext ?_)
  match a with
  | ⟨0, _⟩ => show win1_1.index t (0 : Fin 2) * 4096 + 1 * k.val = k.val; omega
  | ⟨1, _⟩ => show win1_1.index t (1 : Fin 2) * 512 + 1 * q.val = Q.val; omega

/-- WHAT POINT `t` WRITES BACK is block `t` of the product of the two arrays. -/
theorem flushed_eq (c : Dev nD) (t : Fin cfg1.N) :
    (dat1 V c).flushed 2 t = ((cfg1.win 2).blk t).view.read (Elt Ideal) (product (leftArr V c) (rightArr V c)) := by
  show (cfg1.win 2).cut (grid1.coords t) ((dat1 V c).after 2 t) = _
  rw [after1_2]
  unfold out1_2
  rw [View.canon_unit_zero hz]
  simp only [View.ld_unit_zero (S := S1024x4096) hz, View.ld_unit_zero (S := S4096x512) hz]
  obtain ⟨e0, e1, e2, e3, e4, e5⟩ := idx_facts t
  funext j
  obtain ⟨r, q, rfl⟩ : ∃ (r : Fin 1024) (q : Fin 512), j = ix2 r q := ⟨j 0, j 1, eq_ix2 j⟩
  have hE : ((cfg1.win 2).blk t).view.emb (ix2 r q)
      = ix2 (⟨win1_2.index t (0 : Fin 2) * 1024 + r.val, by have := r.isLt; omega⟩ : Fin 8192) (⟨win1_2.index t (1 : Fin 2) * 512 + q.val, by have := q.isLt; omega⟩ : Fin 4096) :=
    funext fun a => Fin.ext (by
      match a with
      | ⟨0, _⟩ => show win1_2.index t (0 : Fin 2) * 1024 + 1 * r.val = win1_2.index t (0 : Fin 2) * 1024 + r.val; omega
      | ⟨1, _⟩ => show win1_2.index t (1 : Fin 2) * 512 + 1 * q.val = win1_2.index t (1 : Fin 2) * 512 + q.val; omega)
  rw [View.read_apply, hE]
  show k1_pay1 (F := Ideal) (iblk1 V c 0 t) (iblk1 V c 1 t) (ix2 r q) = product (leftArr V c) (rightArr V c) (ix2 _ _)
  rw [product_ix2]
  refine (tile_apply (iblk1 V c 0 t) (iblk1 V c 1 t) r q).trans (Finset.sum_congr rfl fun k _ => ?_)
  rw [left_block_apply V c t r k ⟨win1_2.index t (0 : Fin 2) * 1024 + r.val, by have := r.isLt; omega⟩ (by show win1_2.index t (0 : Fin 2) * 1024 + r.val = _; omega) e1,
    right_block_apply V c t k q ⟨win1_2.index t (1 : Fin 2) * 512 + q.val, by have := q.isLt; omega⟩ (by show win1_2.index t (1 : Fin 2) * 512 + q.val = _; omega) e2]

/-- An index of the result is in point `t`'s block iff each coordinate is in the block's range on its axis. -/
theorem mem_blk (t : Fin cfg1.N) (i : S8192x4096.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v0).slice (win1_2.rect t)).set ↔ _
  rw [View.set_slice_whole, Rect.mem_set_unit]
  exact Iff.rfl

/-- The tiles cover the result: entry `(i₀, i₁)` lies in block `(i₀ / 1024, i₁ / 512)`. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win1_2.index t (0 : Fin 2) = (i 0).val / 1024 := congrFun ht 0
  have q1 : win1_2.index t (1 : Fin 2) = (i 1).val / 512 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- THE RESULT ARRAY after the region: the product of the left and the right array as the region found them. -/
theorem final (c : Dev nD) : (dat1 V c).arrAt 2 cfg1.N = product (leftArr V c) (rightArr V c) :=
  (dat1 V c).arrAt_eq_of_cover 2 _ (fun t _ => flushed_eq V c t) cover

end Cert.KernelIdeal.ProductRegion

end
-- ==== Proof.WeightRegion.lean ====
/-
  The first kernel region: the weight matrix, row block by row block.

  The grid has 8 points; at point `t` the body reads rows `512·t … 512·t + 511` of the mean `W_m` and of the noise `ε`,
  the same rows of the column `[4096, 1]` that holds `u`, and the one row `[1, 4096]` that holds `v`, and stores
  `W_m + e^(u/2) · (ε · e^(v/2))` (the column broadcast along the rows, the row along the columns), narrowed to bf16 —
  the identity on extended reals. Entry `(r, q)` of the stored block is the specification's weight at `(512·t + r, q)`,
  and the 8 row blocks cover the `[4096, 4096]` array, so after the region it holds the weight matrix of the arrays as
  the region found them — stated for any contents `V` at the region's entry whose column and row arrays hold `u` and `v`.
-/
import proofs.«153414_g18253611008866_pilotgen1_445_20_alg».proof.Proof.Gen.KernelIdeal.Frame
import proofs.«153414_g18253611008866_pilotgen1_445_20_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.WeightRegion

open Cert.KernelIdeal Cert.KernelIdeal.Gen
open Idealize.ShloMosaic Idealize.ShloMosaic.TcCoe Idealize.SL.Sem Idealize.ShloMosaic.ValueIdx
open Idealize.ShloMosaic.Pipeline (Dat)
open Cert.NoisyDense

theorem hz : (![0, 0] : Fin 2 → Nat) = fun _ => 0 := funext fun a => by fin_cases a <;> rfl

/-! ## The body's stored value at an entry -/

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value at `(r, q)`: the mean plus the noise scaled by `e^(x2(r) / 2)` and `e^(x3(q) / 2)`, the column
    factor applied to the noise first. -/
theorem block_apply (x2 : FVec Ideal S512x1 .f32) (x3 : FVec Ideal S1x4096 .f32) (x0 x1 : FVec Ideal S512x4096 .f32)
    (r : Fin 512) (q : Fin 4096) :
    k0_pay1 (F := Ideal) x2 x3 x0 x1 (ix2 r q)
      = x0 (ix2 r q) + Ideal.exp (half * x2 (ix2 r (0 : Fin 1))) * (x1 (ix2 r q) * Ideal.exp (half * x3 (ix2 (0 : Fin 1) q))) := by
  unfold k0_pay1
  rw [shapeCast_self, shapeCast_self]
  show x0 (ix2 r q) + broadcastTo S512x4096 _ broadcasts_S512x1_S512x4096 (ix2 r q) * (x1 (ix2 r q) * broadcastTo S512x4096 _ broadcasts_S1x4096_S512x4096 (ix2 r q)) = _
  rw [broadcastTo_a1_ab_apply, broadcastTo_1b_ab_apply]
  rfl

/-! ## The region, at any entry contents -/

variable (V : (c : Dev nD) → (b : Ref sig .tc) → Buf (Elt Ideal) ((c : Thread nD τ).loc b))

/-- The mean, the noise, the column holding `u` and the row holding `v`, as the region finds them. -/
abbrev meanArr (c : Dev nD) : Mat 4096 4096 := V c main_arg1
abbrev noiseArr (c : Dev nD) : Mat 4096 4096 := V c main_arg4
abbrev colArr (c : Dev nD) : (⟨2, ![4096, 1]⟩ : Shape).Idx → EReal := V c main_call0_v0
abbrev rowArr (c : Dev nD) : (⟨2, ![1, 4096]⟩ : Shape).Idx → EReal := V c main_call0_v1

/-- The block indices over the grid: the mean's, the noise's and the column's windows follow the output's row block,
    the row window stays at block 0, every column block index is 0, and the output's row block index is below 8. -/
theorem idx_facts : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 7 :=
  (by decide +kernel : ∀ t : Fin grid0.N, _)

/-- Every row block of the output is some point's. -/
theorem idx_onto : ∀ (q0 : Fin 8), ∃ t : Fin cfg0.N, win0_4.index t = ![q0.val, 0] :=
  (by decide +kernel : ∀ (q0 : Fin 8), ∃ t : Fin grid0.N, win0_4.index t = ![q0.val, 0])

/-- Row `r` of the mean's block at point `t` is row `512 · (block index) + r` of the mean. -/
theorem mean_block_apply (c : Dev nD) (t : Fin cfg0.N) (r : Fin 512) (q : Fin 4096) (R : Fin 4096)
    (hR : R.val = win0_0.index t (0 : Fin 2) * 512 + r.val) (h1 : win0_0.index t (1 : Fin 2) = 0) :
    (iblk0 V c 0 t : FVec Ideal S512x4096 .f32) (ix2 r q) = meanArr V c (ix2 R q) := by
  unfold iblk0
  rw [View.read_apply]
  show V c main_arg1 _ = V c main_arg1 _
  refine congrArg (V c main_arg1) (funext fun a => Fin.ext ?_)
  match a with
  | ⟨0, _⟩ => show win0_0.index t (0 : Fin 2) * 512 + 1 * r.val = R.val; omega
  | ⟨1, _⟩ => show win0_0.index t (1 : Fin 2) * 4096 + 1 * q.val = q.val; omega

/-- The same for the noise. -/
theorem noise_block_apply (c : Dev nD) (t : Fin cfg0.N) (r : Fin 512) (q : Fin 4096) (R : Fin 4096)
    (hR : R.val = win0_1.index t (0 : Fin 2) * 512 + r.val) (h1 : win0_1.index t (1 : Fin 2) = 0) :
    (iblk0 V c 1 t : FVec Ideal S512x4096 .f32) (ix2 r q) = noiseArr V c (ix2 R q) := by
  unfold iblk0
  rw [View.read_apply]
  show V c main_arg4 _ = V c main_arg4 _
  refine congrArg (V c main_arg4) (funext fun a => Fin.ext ?_)
  match a with
  | ⟨0, _⟩ => show win0_1.index t (0 : Fin 2) * 512 + 1 * r.val = R.val; omega
  | ⟨1, _⟩ => show win0_1.index t (1 : Fin 2) * 4096 + 1 * q.val = q.val; omega

/-- Row `r` of the column's block at point `t` is row `512 · (block index) + r` of the column. -/
theorem col_block_apply (c : Dev nD) (t : Fin cfg0.N) (r : Fin 512) (R : Fin 4096)
    (hR : R.val = win0_2.index t (0 : Fin 2) * 512 + r.val) (h1 : win0_2.index t (1 : Fin 2) = 0) :
    (iblk0 V c 2 t : FVec Ideal S512x1 .f32) (ix2 r (0 : Fin 1)) = colArr V c (ix2 R (0 : Fin 1)) := by
  unfold iblk0
  rw [View.read_apply]
  show V c main_call0_v0 _ = V c main_call0_v0 _
  refine congrArg (V c main_call0_v0) (funext fun a => Fin.ext ?_)
  match a with
  | ⟨0, _⟩ => show win0_2.index t (0 : Fin 2) * 512 + 1 * r.val = R.val; omega
  | ⟨1, _⟩ => show win0_2.index t (1 : Fin 2) * 1 + 1 * 0 = 0; omega

/-- The row window's block is the whole row at every point. -/
theorem row_block_apply (c : Dev nD) (t : Fin cfg0.N) (q : Fin 4096)
    (h0 : win0_3.index t (0 : Fin 2) = 0) (h1 : win0_3.index t (1 : Fin 2) = 0) :
    (iblk0 V c 3 t : FVec Ideal S1x4096 .f32) (ix2 (0 : Fin 1) q) = rowArr V c (ix2 (0 : Fin 1) q) := by
  unfold iblk0
  rw [View.read_apply]
  show V c main_call0_v1 _ = V c main_call0_v1 _
  refine congrArg (V c main_call0_v1) (funext fun a => Fin.ext ?_)
  match a with
  | ⟨0, _⟩ => show win0_3.index t (0 : Fin 2) * 1 + 1 * 0 = 0; omega
  | ⟨1, _⟩ => show win0_3.index t (1 : Fin 2) * 4096 + 1 * q.val = q.val; omega

variable (u v : Vct 4096)

/-- WHAT POINT `t` WRITES BACK is block `t` of the weight matrix, when the column array holds `u` and the row array `v`. -/
theorem flushed_eq (c : Dev nD) (hu : ∀ r : Fin 4096, colArr V c (ix2 r (0 : Fin 1)) = u (ix1 r))
    (hv : ∀ q : Fin 4096, rowArr V c (ix2 (0 : Fin 1) q) = v (ix1 q)) (t : Fin cfg0.N) :
    (dat0 V c).flushed 4 t = ((cfg0.win 4).blk t).view.read (Elt Ideal) (weight (meanArr V c) (noiseArr V c) u v) := by
  show (cfg0.win 4).cut (grid0.coords t) ((dat0 V c).after 4 t) = _
  rw [after0_4]
  unfold out0_4
  rw [View.canon_unit_zero hz]
  simp only [View.ld_unit_zero (S := S512x4096) hz, View.ld_unit_zero (S := S512x1) hz, View.ld_unit_zero (S := S1x4096) hz]
  obtain ⟨e0, e1, e2, e3, e4, e5, e6, e7, e8, e9⟩ := idx_facts t
  funext j
  obtain ⟨r, q, rfl⟩ : ∃ (r : Fin 512) (q : Fin 4096), j = ix2 r q := ⟨j 0, j 1, eq_ix2 j⟩
  have hE : ((cfg0.win 4).blk t).view.emb (ix2 r q)
      = ix2 (⟨win0_4.index t (0 : Fin 2) * 512 + r.val, by have := r.isLt; omega⟩ : Fin 4096) q :=
    funext fun a => Fin.ext (by
      match a with
      | ⟨0, _⟩ => show win0_4.index t (0 : Fin 2) * 512 + 1 * r.val = win0_4.index t (0 : Fin 2) * 512 + r.val; omega
      | ⟨1, _⟩ => show win0_4.index t (1 : Fin 2) * 4096 + 1 * q.val = q.val; omega)
  rw [View.read_apply, hE]
  show k0_pay1 (F := Ideal) (iblk0 V c 2 t) (iblk0 V c 3 t) (iblk0 V c 0 t) (iblk0 V c 1 t) (ix2 r q) = weight (meanArr V c) (noiseArr V c) u v (ix2 _ _)
  rw [weight_ix2]
  refine (block_apply (iblk0 V c 2 t) (iblk0 V c 3 t) (iblk0 V c 0 t) (iblk0 V c 1 t) r q).trans ?_
  rw [mean_block_apply V c t r q ⟨win0_4.index t (0 : Fin 2) * 512 + r.val, by have := r.isLt; omega⟩ (by show win0_4.index t (0 : Fin 2) * 512 + r.val = _; omega) e1,
    noise_block_apply V c t r q ⟨win0_4.index t (0 : Fin 2) * 512 + r.val, by have := r.isLt; omega⟩ (by show win0_4.index t (0 : Fin 2) * 512 + r.val = _; omega) e3,
    col_block_apply V c t r ⟨win0_4.index t (0 : Fin 2) * 512 + r.val, by have := r.isLt; omega⟩ (by show win0_4.index t (0 : Fin 2) * 512 + r.val = _; omega) e5,
    row_block_apply V c t q e6 e7, hu, hv]
  rfl

/-- An index of the output is in point `t`'s block iff each coordinate is in the block's range on its axis. -/
theorem mem_blk (t : Fin cfg0.N) (i : S4096x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_call0_v2).slice (win0_4.rect t)).set ↔ _
  rw [View.set_slice_whole, Rect.mem_set_unit]
  exact Iff.rfl

/-- The row blocks cover the output: entry `(i₀, i₁)` lies in row block `i₀ / 512`. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- THE OUTPUT ARRAY after the region: the weight matrix of the mean, the noise, `u` and `v`. -/
theorem final (c : Dev nD) (hu : ∀ r : Fin 4096, colArr V c (ix2 r (0 : Fin 1)) = u (ix1 r))
    (hv : ∀ q : Fin 4096, rowArr V c (ix2 (0 : Fin 1) q) = v (ix1 q)) :
    (dat0 V c).arrAt 4 cfg0.N = weight (meanArr V c) (noiseArr V c) u v :=
  (dat0 V c).arrAt_eq_of_cover 4 _ (fun t _ => flushed_eq V u v c hu hv t) cover

end Cert.KernelIdeal.WeightRegion

end
-- ==== Proof.LayerValue.lean ====
/-
  The kernel program's result: the layer of its arguments.

  Before the first region the host reshapes `u` to a `[4096, 1]` column and `v` to a `[1, 4096]` row: entry `(r, 0)`
  of the column is `u_r`, entry `(0, q)` of the row is `v_q`, and the mean and the noise are as launched. So the first
  region leaves the specification's weight matrix in its output array (WeightRegion). The second region finds the
  layer's input as launched and that weight matrix as its right operand, and leaves their product in the result array
  (ProductRegion): the layer of Spec.lean.
-/
import proofs.«153414_g18253611008866_pilotgen1_445_20_alg».proof.Proof.KernelRun
import proofs.«153414_g18253611008866_pilotgen1_445_20_alg».proof.Proof.ProductRegion
import proofs.«153414_g18253611008866_pilotgen1_445_20_alg».proof.Proof.WeightRegion
import Idealize.ShloMosaic.Lib.StableHlo.Run

set_option maxRecDepth 16384

noncomputable section

namespace Cert.KernelIdeal.LayerValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.NoisyDense

variable (m : (ℓ : Loc nD τ sig) → Buf (Elt Ideal) ℓ) (ρ : Dev nD → PrngReg)

/-- The five arguments as launched. -/
abbrev xIn (c : Dev nD) : Mat 8192 4096 := m ((c : Thread nD τ).loc main_arg0)
abbrev meanIn (c : Dev nD) : Mat 4096 4096 := m ((c : Thread nD τ).loc main_arg1)
abbrev uIn (c : Dev nD) : Vct 4096 := m ((c : Thread nD τ).loc main_arg2)
abbrev vIn (c : Dev nD) : Vct 4096 := m ((c : Thread nD τ).loc main_arg3)
abbrev noiseIn (c : Dev nD) : Mat 4096 4096 := m ((c : Thread nD τ).loc main_arg4)

/-! ## The first region's entry contents -/

theorem entry_mean (c : Dev nD) : V1 m ρ c main_arg1 = meanIn m c := by
  show StableHlo.after hostOps0 (W0 m ρ c) (Proc.devRef .tc main_arg1) = _
  after_results

theorem entry_noise (c : Dev nD) : V1 m ρ c main_arg4 = noiseIn m c := by
  show StableHlo.after hostOps0 (W0 m ρ c) (Proc.devRef .tc main_arg4) = _
  after_results

/-- The column the host made of `u`. -/
theorem entry_col (c : Dev nD) :
    (V1 m ρ c main_call0_v0 : S4096x1.Idx → EReal) = shapeCast S4096x1 (uIn m c) shapeCasts_S4096_S4096x1 := by
  show StableHlo.after hostOps0 (W0 m ρ c) (Proc.devRef .tc main_call0_v0) = _
  after_results
  rfl

/-- The row the host made of `v`. -/
theorem entry_row (c : Dev nD) :
    (V1 m ρ c main_call0_v1 : S1x4096.Idx → EReal) = shapeCast S1x4096 (vIn m c) shapeCasts_S4096_S1x4096 := by
  show StableHlo.after hostOps0 (W0 m ρ c) (Proc.devRef .tc main_call0_v1) = _
  after_results
  rfl

/-- Entry `(r, 0)` of the column is `u_r`. -/
theorem entry_col_apply (c : Dev nD) (r : Fin 4096) :
    WeightRegion.colArr (V1 m ρ) c (ix2 r (0 : Fin 1)) = uIn m c (ix1 r) := by
  show (V1 m ρ c main_call0_v0 : S4096x1.Idx → EReal) (ix2 r (0 : Fin 1)) = _
  rw [entry_col]
  exact shapeCast_apply (uIn m c) shapeCasts_S4096_S4096x1 _ _ (by
    rw [Shape.rowMajor_val_two, Shape.rowMajor_val_one]
    show r.val = r.val * 1 + 0
    omega)

/-- Entry `(0, q)` of the row is `v_q`. -/
theorem entry_row_apply (c : Dev nD) (q : Fin 4096) :
    WeightRegion.rowArr (V1 m ρ) c (ix2 (0 : Fin 1) q) = vIn m c (ix1 q) := by
  show (V1 m ρ c main_call0_v1 : S1x4096.Idx → EReal) (ix2 (0 : Fin 1) q) = _
  rw [entry_row]
  exact shapeCast_a_1a_apply (vIn m c) shapeCasts_S4096_S1x4096 (0 : Fin 1) q

/-- After the first region its output array holds the weight matrix of the launched arguments. -/
theorem weight_built (c : Dev nD) :
    (dat0 (V1 m ρ) c).arrAt 4 cfg0.N = weight (meanIn m c) (noiseIn m c) (uIn m c) (vIn m c) := by
  rw [WeightRegion.final (V1 m ρ) (uIn m c) (vIn m c) c (entry_col_apply m ρ c) (entry_row_apply m ρ c)]
  show weight (V1 m ρ c main_arg1) (V1 m ρ c main_arg4) _ _ = _
  rw [entry_mean, entry_noise]

/-! ## The second region's entry contents -/

/-- The layer's input is as launched: no host operation and no write-back of the first region touches it. -/
theorem entry_left (c : Dev nD) : V2 m ρ c main_arg0 = xIn m c :=
  calc W2 m ρ c (Proc.devRef .tc main_arg0)
    _ = W1 m ρ c (Proc.devRef .tc main_arg0) := W2_of_ne m ρ c main_arg0 (by decide)
    _ = xIn m c := by
      show StableHlo.after hostOps0 (W0 m ρ c) (Proc.devRef .tc main_arg0) = _
      after_results

/-- The right operand is what the first region left. -/
theorem entry_right (c : Dev nD) : V2 m ρ c main_call0_v2 = weight (meanIn m c) (noiseIn m c) (uIn m c) (vIn m c) :=
  (W2_arr m ρ c 4).trans (weight_built m ρ c)

/-- THE RESULT: after the second region the result array holds the layer of the launched arguments. -/
theorem result (c : Dev nD) :
    (dat1 (V2 m ρ) c).arrAt 2 cfg1.N = layer (xIn m c) (meanIn m c) (noiseIn m c) (uIn m c) (vIn m c) := by
  rw [ProductRegion.final (V2 m ρ) c]
  show product (V2 m ρ c main_arg0) (V2 m ρ c main_call0_v2) = product _ _
  rw [entry_left, entry_right]

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v0) = layer (xIn m c) (meanIn m c) (noiseIn m c) (uIn m c) (vIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result m ρ c), (h c).2⟩) (GenRun.run_named m ρ)

end Cert.KernelIdeal.LayerValue

end
-- ==== Proof.RefValue.lean ====
/-
  The plain program computes the layer of Spec.lean: its weight matrix is `W_m + (row · ε) · column`, entry by entry the
  weight of the specification (the two groupings of the scaled noise agree), and its result is the plain product of
  `x` with that matrix, read as the sum over the contracted index.
-/
import proofs.«153414_g18253611008866_pilotgen1_445_20_alg».proof.Proof.Gen.ReferenceIdeal.Read
import proofs.«153414_g18253611008866_pilotgen1_445_20_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.NoisyDense

/-- The plain program's weight matrix at `(r, c)` is the specification's weight. -/
theorem weight_eq (x1 : (⟨S4096x4096, .f32⟩ : BufTy).Contents (Elt Ideal)) (x2 x3 : (⟨S4096, .f32⟩ : BufTy).Contents (Elt Ideal))
    (x4 : (⟨S4096x4096, .f32⟩ : BufTy).Contents (Elt Ideal)) (r c : Fin 4096) :
    val_main_v12 (F := Ideal) x1 x2 x3 x4 (ix2 r c) = weightAt x1 x4 x2 x3 r c := by
  have e1 : idx_main_v3 (idx_main_v4 (ix2 r c)) = ix1 r := funext fun a => Fin.ext (by match a with | ⟨0, _⟩ => rfl)
  have e2 : idx_main_v9 (idx_main_v10 (ix2 r c)) = ix1 c := funext fun a => Fin.ext (by match a with | ⟨0, _⟩ => rfl)
  rw [val_main_v12_apply, val_main_v11_apply, val_main_v5_apply, val_main_v4_apply, val_main_v3_apply, val_main_v2_apply,
    val_main_v1_apply, val_main_v0_apply, val_main_cst_apply, val_main_v10_apply, val_main_v9_apply, val_main_v8_apply,
    val_main_v7_apply, val_main_v6_apply, val_main_cst_0_apply, e1, e2]
  simp only [Ideal.addf_def, Ideal.mulf_def, Ideal.hostUnary_exp_def, Ideal.ofBits_def]
  exact weightAt_regroup x1 x4 x2 x3 r c

/-- The plain program's result is the layer of its arguments. -/
theorem result_eq (x0 : (⟨S8192x4096, .f32⟩ : BufTy).Contents (Elt Ideal)) (x1 : (⟨S4096x4096, .f32⟩ : BufTy).Contents (Elt Ideal))
    (x2 x3 : (⟨S4096, .f32⟩ : BufTy).Contents (Elt Ideal)) (x4 : (⟨S4096x4096, .f32⟩ : BufTy).Contents (Elt Ideal)) :
    val_main_v13 (F := Ideal) x0 x1 x2 x3 x4 = layer x0 x1 x4 x2 x3 := by
  funext i
  obtain ⟨b, c, rfl⟩ : ∃ (b : Fin 8192) (c : Fin 4096), i = ix2 b c := ⟨i 0, i 1, eq_ix2 i⟩
  rw [val_main_v13_apply]
  show _ = ∑ k : Fin 4096, x0 (ix2 b k) * weight x1 x4 x2 x3 (ix2 k c)
  refine Finset.sum_congr rfl fun k _ => ?_
  have el : lidx_main_v13 (ix2 b c) k = ix2 b k := funext fun a => Fin.ext (by match a with | ⟨0, _⟩ => rfl | ⟨1, _⟩ => rfl)
  have er : ridx_main_v13 (ix2 b c) k = ix2 k c := funext fun a => Fin.ext (by match a with | ⟨0, _⟩ => rfl | ⟨1, _⟩ => rfl)
  rw [el, er, weight_eq, weight_ix2]

end Cert.ReferenceIdeal.RefValue

end
-- ==== Proof.lean ====
/-
  A dense layer with a noisy weight, `x · (W_m + diag(e^(u/2)) · ε · diag(e^(v/2)))`, computed two ways.

  The kernel program builds the weight matrix in a first region, 512 rows at a time, as
  `W_m + e^(u/2) · (ε · e^(v/2))`, and multiplies `x` by it in a second region, one `[1024, 512]` tile of the result
  at a time on the matrix unit. The plain program forms `W_m + (e^(u/2) · ε) · e^(v/2)` with whole-array operations
  and multiplies by one `dot_general`. Over the extended reals the narrowing of the weight to bf16 is the identity, a
  matrix-unit product into zeros and a `dot_general` are the same sum over the contracted index, the exponential is
  one function on both sides, and the two groupings of the scaled noise agree because multiplication is associative —
  at the infinities too, so the finiteness of the inputs is not used. Both programs therefore end with the layer of
  Proof/Spec.lean in their result array (Proof/LayerValue.lean for the kernel program, Proof/RefValue.lean for the plain
  one).

  The three frames are the generated ones (the plain program's is its generated run with the result dropped); the
  idealized kernel program is the kernel program's own text read over the extended reals, so nothing is owed for it.
-/
import proofs.«153414_g18253611008866_pilotgen1_445_20_alg».proof.Defs
import proofs.«153414_g18253611008866_pilotgen1_445_20_alg».proof.Proof.Gen.Kernel
import proofs.«153414_g18253611008866_pilotgen1_445_20_alg».proof.Proof.Gen.Kernel.Frame
import proofs.«153414_g18253611008866_pilotgen1_445_20_alg».proof.Proof.Gen.KernelIdeal
import proofs.«153414_g18253611008866_pilotgen1_445_20_alg».proof.Proof.Gen.KernelIdeal.Frame
import proofs.«153414_g18253611008866_pilotgen1_445_20_alg».proof.Proof.Gen.ReferenceIdeal
import proofs.«153414_g18253611008866_pilotgen1_445_20_alg».proof.Proof.Gen.ReferenceIdeal.Run
import proofs.«153414_g18253611008866_pilotgen1_445_20_alg».proof.Proof.Gen.ReferenceIdeal.Read
import proofs.«153414_g18253611008866_pilotgen1_445_20_alg».proof.Proof.Gen.Pre_finite_inputs
import proofs.«153414_g18253611008866_pilotgen1_445_20_alg».proof.Proof.LayerValue
import proofs.«153414_g18253611008866_pilotgen1_445_20_alg».proof.Proof.RefValue
import Idealize.ShloMosaic.Adequacy
import Idealize.ShloMosaic.Init

noncomputable section

namespace Cert.Proof

open Idealize.ShloMosaic Idealize.SL.Sem Cert.NoisyDense

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the layer of those arguments in their
    result arrays. -/
theorem algebraic : Cert.algebraic_KernelIdeal_ReferenceIdeal := by
  intro m ρ m' ρ' _ hagree
  refine ⟨fun c => layer (Cert.KernelIdeal.LayerValue.xIn m c) (Cert.KernelIdeal.LayerValue.meanIn m c)
      (Cert.KernelIdeal.LayerValue.noiseIn m c) (Cert.KernelIdeal.LayerValue.uIn m c) (Cert.KernelIdeal.LayerValue.vIn m c),
    Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
